-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S16384x4096 .f32) (main_arg1 : FVec F S4096x4096 .f32) (main_arg2 : FVec F S4096 .f32) (main_arg3 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x4096.size a
  hwx0_4 : ∀ i : grid0.Coords, EltTy.bits .f32 = 32 ∨ (Rect.block (s := S16384x4096) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.LibStretchSum.lean ====
/-
  Sums cut into equal stretches.  A sum over the first `a * b` naturals is the sum, over the `a` stretches of
  length `b`, of each stretch's own sum: only commutativity and associativity of `+` are used, so the statement
  holds in every additive commutative monoid (the extended reals among them, infinities included).
-/
import Mathlib.Algebra.BigOperators.Intervals
import Mathlib.Algebra.BigOperators.Fin

namespace Cert.Algebra

open Finset

/-- `∑_{s<a} ∑_{q<b} f (b·s + q) = ∑_{k<a·b} f k`. -/
theorem sum_range_stretches {β : Type*} [AddCommMonoid β] (f : ℕ → β) (b : ℕ) :
    ∀ a : ℕ, ∑ s ∈ range a, ∑ q ∈ range b, f (b * s + q) = ∑ k ∈ range (a * b), f k
  | 0 => by simp
  | a + 1 => by
    rw [sum_range_succ, sum_range_stretches f b a, Nat.succ_mul, sum_range_add, Nat.mul_comm b a]

/-- The same with the inner sums over `Fin b` and the whole sum over `Fin (a * b)`. -/
theorem sum_fin_stretches {β : Type*} [AddCommMonoid β] (f : ℕ → β) (a b : ℕ) :
    ∑ s ∈ range a, ∑ q : Fin b, f (b * s + q.val) = ∑ k : Fin (a * b), f k.val := by
  rw [Fin.sum_univ_eq_sum_range (fun k => f k) (a * b), ← sum_range_stretches f b a]
  exact sum_congr rfl fun s _ => Fin.sum_univ_eq_sum_range (fun q => f (b * s + q)) b

end Cert.Algebra
-- ==== Proof.Spec.lean ====
/-
  The specification.  Both programs compute, at row `r` and column `c`,

      y (r, c) = ( ∑_{k < 4096} x (r, k) · ( w (c, k) · mask (c, k) ) ) + bias c

  on the extended reals.  The summand is written as a function of three naturals (zero outside the arrays' extents),
  so that a stretch of the contracted axis, or a block of rows or columns, is addressed by plain arithmetic.
-/
import Idealize.ShloMosaic.PureOps.Ideal
import Idealize.ShloMosaic.Lib.ValueIdx
import proofs.«120840_j59837484367883_1_alg».proof.Proof.LibStretchSum

noncomputable section

namespace Cert.Spec

open Idealize.ShloMosaic Idealize.ShloMosaic.ValueIdx

/-- The shapes of the activations (and of the result), of the weight and the mask, and of the bias. -/
abbrev SX : Shape := ⟨2, ![16384, 4096]⟩
abbrev SW : Shape := ⟨2, ![4096, 4096]⟩
abbrev SB : Shape := ⟨1, ![4096]⟩

/-- The summand at row `r`, column `c` and position `k` of the contracted axis: `x (r, k) · (w (c, k) · mask (c, k))`. -/
def term (x : SX.Idx → EReal) (w mk : SW.Idx → EReal) (r c k : ℕ) : EReal :=
  if h : r < 16384 ∧ c < 4096 ∧ k < 4096 then
    x (ix2 ⟨r, h.1⟩ ⟨k, h.2.2⟩) * (w (ix2 ⟨c, h.2.1⟩ ⟨k, h.2.2⟩) * mk (ix2 ⟨c, h.2.1⟩ ⟨k, h.2.2⟩))
  else 0

theorem term_of_lt (x : SX.Idx → EReal) (w mk : SW.Idx → EReal) (r c k : ℕ) (hr : r < 16384) (hc : c < 4096) (hk : k < 4096) :
    term x w mk r c k = x (ix2 ⟨r, hr⟩ ⟨k, hk⟩) * (w (ix2 ⟨c, hc⟩ ⟨k, hk⟩) * mk (ix2 ⟨c, hc⟩ ⟨k, hk⟩)) := by
  unfold term
  rw [dif_pos ⟨hr, hc, hk⟩]

/-- The masked linear layer: the whole contraction, then the bias. -/
def G (x : SX.Idx → EReal) (w : SW.Idx → EReal) (b : SB.Idx → EReal) (mk : SW.Idx → EReal) : SX.Idx → EReal :=
  fun i => (∑ k : Fin 4096, term x w mk (i 0).val (i 1).val k.val) + b (ix1 (i 1))

/-- The contraction taken in four stretches of 1024 and summed is the whole contraction. -/
theorem stretches (x : SX.Idx → EReal) (w mk : SW.Idx → EReal) (r c : ℕ) :
    ∑ s ∈ Finset.range 4, ∑ q : Fin 1024, term x w mk r c (1024 * s + q.val) = ∑ k : Fin 4096, term x w mk r c k.val :=
  Cert.Algebra.sum_fin_stretches (term x w mk r c) 4 1024

end Cert.Spec

end
-- ==== Proof.Ref.lean ====
/-
  The reference computes the specification: its five host operations — the masked weight, the contraction of the
  second axes, the bias laid out as a row and repeated down the rows, the sum — read at an entry (r, c) are
  `(∑_k x (r, k) · (w (c, k) · mask (c, k))) + bias c`.
-/
import proofs.«120840_j59837484367883_1_alg».proof.Proof.Gen.ReferenceIdeal.Read
import proofs.«120840_j59837484367883_1_alg».proof.Proof.Spec

noncomputable section

namespace Cert.ReferenceIdeal.IsSpec

open Cert.ReferenceIdeal Cert.ReferenceIdeal.Read Idealize.ShloMosaic Idealize.ShloMosaic.ValueIdx Cert.Spec

theorem lidx_eq (i : S16384x4096.Idx) (k : Fin 4096) :
    lidx_main_v1 i k = ix2 (⟨(i 0).val, (i 0).isLt⟩ : Fin 16384) (⟨k.val, k.isLt⟩ : Fin 4096) :=
  funext fun a => Fin.ext (by match a with | ⟨0, _⟩ => rfl | ⟨1, _⟩ => rfl)
theorem ridx_eq (i : S16384x4096.Idx) (k : Fin 4096) :
    ridx_main_v1 i k = ix2 (⟨(i 1).val, (i 1).isLt⟩ : Fin 4096) (⟨k.val, k.isLt⟩ : Fin 4096) :=
  funext fun a => Fin.ext (by match a with | ⟨0, _⟩ => rfl | ⟨1, _⟩ => rfl)
theorem bidx_eq (i : S16384x4096.Idx) : idx_main_v2 (idx_main_v3 i) = ix1 (i 1) :=
  funext fun a => Fin.ext (by match a with | ⟨0, _⟩ => rfl)

/-- The reference's result is the specification of its four arguments. -/
theorem result_eq (x : (⟨S16384x4096, .f32⟩ : BufTy).Contents (Elt Ideal)) (w : (⟨S4096x4096, .f32⟩ : BufTy).Contents (Elt Ideal))
    (b : (⟨S4096, .f32⟩ : BufTy).Contents (Elt Ideal)) (mk : (⟨S4096x4096, .f32⟩ : BufTy).Contents (Elt Ideal)) :
    val_main_v4 (F := Ideal) x w b mk = G x w b mk := by
  funext i
  rw [val_main_v4_apply, val_main_v1_apply, val_main_v3_apply, val_main_v2_apply, bidx_eq]
  show (∑ k : Fin 4096, x (lidx_main_v1 i k) * val_main_v0 (F := Ideal) w mk (ridx_main_v1 i k)) + b (ix1 (i 1)) = _
  unfold G
  congr 1
  refine Finset.sum_congr rfl fun k _ => ?_
  rw [term_of_lt x w mk _ _ _ (i 0).isLt (i 1).isLt k.isLt, lidx_eq, ridx_eq, val_main_v0_apply]
  rfl

end Cert.ReferenceIdeal.IsSpec

end
-- ==== Proof.Steps.lean ====
/-
  What one grid step leaves behind, as values.  The step's stores are read back as the body's arithmetic of the
  blocks it loaded: with `acc` the accumulator block found at entry, `xb` the activation block, `wb` and `mb` the
  weight and mask blocks and `bb` the bias block,

    * the first step of a stretch (k = 0) leaves   zero ⊕ xb · (wb ∘ mb)ᵀ   in the accumulator,
    * every later step leaves                     acc  ⊕ xb · (wb ∘ mb)ᵀ,
    * and the last step (k = 3) also writes       (acc ⊕ xb · (wb ∘ mb)ᵀ) ⊕ bb   to the output block,

  where ⊕ is the elementwise sum and the bias row is repeated down the rows.  Stated for every float instance.
-/
import proofs.«120840_j59837484367883_1_alg».proof.Proof.Gen.KernelIdeal.Frame
import Idealize.ShloMosaic.Lib.Pipeline.Value
import Idealize.ShloMosaic.Lib.Tactic

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The first step of a stretch: the accumulator is reset to zero, read back, and the product added. -/
theorem scratch_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x1024 .f32) (x1 : Vec F S1024x1024 .f32) (x2 : Vec F S1024x1024 .f32) (x3 : Vec F S1x1024 .f32) :
    sout0_A_0 c i arg3 harg3 arg4 harg4 arg5 harg5 arg6 harg6 arg7 harg7 arg8 harg8 hc0 hc1 x0 x1 x2 x3 = k0_pay2 x1 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg8.read_unread,
    View.ld_unit_zero (S := S512x1024) hz, View.ld_unit_zero (S := S1024x1024) hz]

/-- A middle step: the product is added to what the step before left. -/
theorem scratch_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x1024 .f32) (x1 : Vec F S1024x1024 .f32) (x2 : Vec F S1024x1024 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg8.read_unread,
    View.ld_unit_zero (S := S512x1024) hz, View.ld_unit_zero (S := S1024x1024) hz]

/-- The last step of a stretch leaves the same in the accumulator … -/
theorem scratch_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S1024x1024 .f32) (x2 : Vec F S1024x1024 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg8.read_unread,
    View.ld_unit_zero (S := S512x1024) hz, View.ld_unit_zero (S := S1024x1024) hz]

/-- … and writes the accumulator plus the bias block to the output block. -/
theorem out_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S1024x1024 .f32) (x2 : Vec F S1024x1024 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay3 (k0_pay2 x1 x2 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S512x1024) hz, View.ld_unit_zero (S := S1024x1024) hz, View.ld_unit_zero (S := S1x1024) hz,
    View.readCov_unit_zero (S := S512x1024) _ hz]

end Cert.KernelIdeal.Steps

end
-- ==== Proof.Payload.lean ====
/-
  The body's arithmetic read at one entry, on the extended reals.  At row `p` and column `q` of a 512 × 1024 block:

    * the accumulating step gives   acc (p, q) + ∑_{j < 1024} xb (p, j) · ( wb (q, j) · mb (q, j) )
      (the matrix product contracts the second axis of both operands; a change of float format is the identity),
    * the reset value is 0,
    * the closing step gives        acc (p, q) + bb (0, q)   (the bias row repeated down the rows).
-/
import proofs.«120840_j59837484367883_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The left operand of the block product is read at the output's row … -/
theorem lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … and at the contracted position; -/
theorem lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- the right operand at the output's column, as its ROW … -/
theorem rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and at the contracted position. -/
theorem rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The block product at an entry: row `p` of the left operand against row `q` of the right one. -/
theorem product_apply (l : FVec Ideal S512x1024 .bf16) (r : FVec Ideal S1024x1024 .bf16) (p : Fin 512) (q : Fin 1024) :
    matmul dot_S512x1024_S1024x1024_S512x1024_1_1_0_0_n_n none l r (constant S512x1024 .f32 0x00000000#32) (ix2 p q)
      = ∑ j : Fin 1024, l (ix2 p j) * r (ix2 q j) := by
  show FloatOps.matmul dot_S512x1024_S1024x1024_S512x1024_1_1_0_0_n_n none l r (constant S512x1024 .f32 0x00000000#32) (ix2 p q) = _
  rw [Ideal.matmul_constant_zero_apply, ← Equiv.sum_comp (contrEquiv1 dot_S512x1024_S1024x1024_S512x1024_1_1_0_0_n_n 1024 rfl rfl).symm]
  refine Finset.sum_congr rfl fun j _ => ?_
  have hj := contrEquiv1_symm_val dot_S512x1024_S1024x1024_S512x1024_1_1_0_0_n_n 1024 rfl rfl j
  have el : dot_S512x1024_S1024x1024_S512x1024_1_1_0_0_n_n.lhsIdx (ix2 p q) ((contrEquiv1 dot_S512x1024_S1024x1024_S512x1024_1_1_0_0_n_n 1024 rfl rfl).symm j) = ix2 p j := funext fun a => Fin.ext (by
    match a with
    | ⟨0, _⟩ => exact lhs_0 _ _
    | ⟨1, _⟩ => exact (lhs_1 _ _).trans hj)
  have er : dot_S512x1024_S1024x1024_S512x1024_1_1_0_0_n_n.rhsIdx (ix2 p q) ((contrEquiv1 dot_S512x1024_S1024x1024_S512x1024_1_1_0_0_n_n 1024 rfl rfl).symm j) = ix2 q j := funext fun a => Fin.ext (by
    match a with
    | ⟨0, _⟩ => exact rhs_0 _ _
    | ⟨1, _⟩ => exact (rhs_1 _ _).trans hj)
  rw [el, er]

/-- The accumulating step at an entry. -/
theorem step_apply (wb mb : Vec Ideal S1024x1024 .f32) (xb acc : Vec Ideal S512x1024 .f32) (p : Fin 512) (q : Fin 1024) :
    k0_pay2 (F := Ideal) wb mb xb acc (ix2 p q)
      = acc (ix2 p q) + ∑ j : Fin 1024, xb (ix2 p j) * (wb (ix2 q j) * mb (ix2 q j)) := by
  unfold k0_pay2
  rw [shapeCast_self]
  show acc (ix2 p q) + matmul (F := Ideal) dot_S512x1024_S1024x1024_S512x1024_1_1_0_0_n_n none _ _ (constant (F := Ideal) S512x1024 .f32 0x00000000#32) (ix2 p q) = _
  rw [product_apply]
  rfl

/-- The reset value at an entry. -/
theorem reset_apply (i : S512x1024.Idx) : k0_pay1 (F := Ideal) i = 0 := by
  unfold k0_pay1
  rw [shapeCast_self]
  exact Ideal.ofBits_zero_f32

/-- The closing step at an entry. -/
theorem close_apply (acc : Vec Ideal S512x1024 .f32) (bb : Vec Ideal S1x1024 .f32) (p : Fin 512) (q : Fin 1024) :
    k0_pay3 (F := Ideal) acc bb (ix2 p q) = acc (ix2 p q) + bb (ix2 (0 : Fin 1) q) := by
  unfold k0_pay3
  rw [shapeCast_self]
  show acc (ix2 p q) + broadcastTo S512x1024 bb broadcasts_S1x1024_S512x1024 (ix2 p q) = _
  rw [broadcastTo_apply bb broadcasts_S1x1024_S512x1024 (ix2 p q) (ix2 (0 : Fin 1) q) (fun a => by
    match a with
    | ⟨0, _⟩ => show 0 = if (1 : Nat) = 1 then 0 else _; rw [if_pos rfl]
    | ⟨1, _⟩ => show q.val = if (1024 : Nat) = 1 then 0 else q.val; rw [if_neg (by decide)])]

end Cert.KernelIdeal.Payload

end
-- ==== Proof.Blocks.lean ====
/-
  Where a block sits in its array.  Grid point `t` (of 512, the last axis fastest) is the step
  (t / 16, (t / 4) % 4, t % 4) = (row block, column block, stretch of the contracted axis):

    * the activation block holds rows 512·(t/16) + p and contracted positions 1024·(t%4) + j of `x`,
    * the weight and mask blocks hold rows 1024·((t/4)%4) + q and the same contracted positions,
    * the bias block holds columns 1024·((t/4)%4) + q of the bias laid out as one row.
-/
import proofs.«120840_j59837484367883_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The argument arrays, by their literal types. -/
abbrev xarr (c : Dev nD) : Vec F S16384x4096 .f32 := m ((c : Thread nD τ).loc main_arg0)
abbrev warr (c : Dev nD) : Vec F S4096x4096 .f32 := m ((c : Thread nD τ).loc main_arg1)
abbrev barr (c : Dev nD) : Vec F S4096 .f32 := m ((c : Thread nD τ).loc main_arg2)
abbrev marr (c : Dev nD) : Vec F S4096x4096 .f32 := m ((c : Thread nD τ).loc main_arg3)

/-- The blocks a step loads, by their literal types. -/
abbrev xblk (c : Dev nD) (t : Fin cfg0.N) : Vec F S512x1024 .f32 := iblk m c 0 t
abbrev wblk (c : Dev nD) (t : Fin cfg0.N) : Vec F S1024x1024 .f32 := iblk m c 1 t
abbrev mblk (c : Dev nD) (t : Fin cfg0.N) : Vec F S1024x1024 .f32 := iblk m c 2 t
abbrev bblk (c : Dev nD) (t : Fin cfg0.N) : Vec F S1x1024 .f32 := iblk m c 3 t

/-- The block indices of the four input windows and of the output window at every step, decided over the grid. -/
theorem index_x : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem index_w : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
theorem index_m : ∀ t : Fin cfg0.N, win0_2.index t 0 = t.val / 4 % 4 ∧ win0_2.index t 1 = t.val % 4 :=
  (by decide +kernel : ∀ t : Fin grid0.N, win0_2.index t 0 = t.val / 4 % 4 ∧ win0_2.index t 1 = t.val % 4)
theorem index_b : ∀ t : Fin cfg0.N, win0_3.index t 0 = 0 ∧ win0_3.index t 1 = t.val / 4 % 4 :=
  (by decide +kernel : ∀ t : Fin grid0.N, win0_3.index t 0 = 0 ∧ win0_3.index t 1 = t.val / 4 % 4)
theorem index_o : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)

/-- The activation block at an entry. -/
theorem xblk_apply (c : Dev nD) (t : Fin cfg0.N) (p : Fin 512) (j : Fin 1024)
    (hr : 512 * (t.val / 16) + p.val < 16384) (hk : 1024 * (t.val % 4) + j.val < 4096) :
    xblk m c t (ix2 p j) = xarr m c (ix2 ⟨512 * (t.val / 16) + p.val, hr⟩ ⟨1024 * (t.val % 4) + j.val, hk⟩) := by
  show ((cfg0.win 0).blk t).view.read (Elt F) (V m c (Pipeline.arrRef spec0 0)) (ix2 p j) = _
  rw [View.read_apply]
  show V m c main_arg0 _ = m ((c : Thread nD τ).loc main_arg0) _
  rw [V_main_arg0]
  refine congrArg _ (funext fun a => Fin.ext ?_)
  match a with
  | ⟨0, _⟩ => show win0_0.index t 0 * 512 + 1 * p.val = 512 * (t.val / 16) + p.val; rw [(index_x t).1]; omega
  | ⟨1, _⟩ => show win0_0.index t 1 * 1024 + 1 * j.val = 1024 * (t.val % 4) + j.val; rw [(index_x t).2]; omega

/-- The weight block at an entry. -/
theorem wblk_apply (c : Dev nD) (t : Fin cfg0.N) (q : Fin 1024) (j : Fin 1024)
    (hc : 1024 * (t.val / 4 % 4) + q.val < 4096) (hk : 1024 * (t.val % 4) + j.val < 4096) :
    wblk m c t (ix2 q j) = warr m c (ix2 ⟨1024 * (t.val / 4 % 4) + q.val, hc⟩ ⟨1024 * (t.val % 4) + j.val, hk⟩) := by
  show ((cfg0.win 1).blk t).view.read (Elt F) (V m c (Pipeline.arrRef spec0 1)) (ix2 q j) = _
  rw [View.read_apply]
  show V m c main_arg1 _ = m ((c : Thread nD τ).loc main_arg1) _
  rw [V_main_arg1]
  refine congrArg _ (funext fun a => Fin.ext ?_)
  match a with
  | ⟨0, _⟩ => show win0_1.index t 0 * 1024 + 1 * q.val = 1024 * (t.val / 4 % 4) + q.val; rw [(index_w t).1]; omega
  | ⟨1, _⟩ => show win0_1.index t 1 * 1024 + 1 * j.val = 1024 * (t.val % 4) + j.val; rw [(index_w t).2]; omega

/-- The mask block at an entry. -/
theorem mblk_apply (c : Dev nD) (t : Fin cfg0.N) (q : Fin 1024) (j : Fin 1024)
    (hc : 1024 * (t.val / 4 % 4) + q.val < 4096) (hk : 1024 * (t.val % 4) + j.val < 4096) :
    mblk m c t (ix2 q j) = marr m c (ix2 ⟨1024 * (t.val / 4 % 4) + q.val, hc⟩ ⟨1024 * (t.val % 4) + j.val, hk⟩) := by
  show ((cfg0.win 2).blk t).view.read (Elt F) (V m c (Pipeline.arrRef spec0 2)) (ix2 q j) = _
  rw [View.read_apply]
  show V m c main_arg3 _ = m ((c : Thread nD τ).loc main_arg3) _
  rw [V_main_arg3]
  refine congrArg _ (funext fun a => Fin.ext ?_)
  match a with
  | ⟨0, _⟩ => show win0_2.index t 0 * 1024 + 1 * q.val = 1024 * (t.val / 4 % 4) + q.val; rw [(index_m t).1]; omega
  | ⟨1, _⟩ => show win0_2.index t 1 * 1024 + 1 * j.val = 1024 * (t.val % 4) + j.val; rw [(index_m t).2]; omega

/-- The bias, laid out as one row before the region: entry (0, n) of the row is entry n of the bias. -/
theorem brow_apply (c : Dev nD) (n : Fin 4096) :
    (V m c main_v0 : Vec F S1x4096 .f32) (ix2 (0 : Fin 1) n) = barr m c (ix1 n) := by
  have e : (V m c main_v0 : Vec F S1x4096 .f32) = shapeCast S1x4096 (barr m c) shapeCasts_S4096_S1x4096 := by
    dsimp only [Gen.V, Gen.hostOps0]; after_results; rfl
  rw [e]
  exact shapeCast_apply _ _ _ _ (by
    rw [Shape.rowMajor_val_two, Shape.rowMajor_val_one]
    show n.val = 0 * 4096 + n.val
    omega)

/-- The bias block at an entry. -/
theorem bblk_apply (c : Dev nD) (t : Fin cfg0.N) (q : Fin 1024) (hc : 1024 * (t.val / 4 % 4) + q.val < 4096) :
    bblk m c t (ix2 (0 : Fin 1) q) = barr m c (ix1 ⟨1024 * (t.val / 4 % 4) + q.val, hc⟩) := by
  show ((cfg0.win 3).blk t).view.read (Elt F) (V m c (Pipeline.arrRef spec0 3)) (ix2 (0 : Fin 1) q) = _
  rw [View.read_apply, ← brow_apply m c ⟨1024 * (t.val / 4 % 4) + q.val, hc⟩]
  show V m c main_v0 _ = V m c main_v0 _
  refine congrArg _ (funext fun a => Fin.ext ?_)
  match a with
  | ⟨0, _⟩ => show win0_3.index t 0 * 1 + 1 * 0 = 0; rw [(index_b t).1]
  | ⟨1, _⟩ => show win0_3.index t 1 * 1024 + 1 * q.val = 1024 * (t.val / 4 % 4) + q.val; rw [(index_b t).2]; omega

end Cert.KernelIdeal.Blocks

end
-- ==== Proof.Fold.lean ====
/-
  The accumulator across a stretch of four steps, and the block the last step writes.

  Within the stretch that starts at step `b = 4·(t / 4)` the accumulator after step `b + s` holds, at entry (p, q),

        0 + ∑_{s' ≤ s} ∑_{j < 1024} x (R + p, 1024·s' + j) · ( w (C + q, 1024·s' + j) · mask (C + q, 1024·s' + j) )

  with R = 512·(t / 16) and C = 1024·((t / 4) % 4): each step adds its own stretch of the contraction.  After the
  fourth step the stretches together are the whole contraction (sums may be regrouped freely on the extended reals),
  and the block written back is the specification read at rows R + p and columns C + q.
-/
import proofs.«120840_j59837484367883_1_alg».proof.Proof.Gen.KernelIdeal.Value
import proofs.«120840_j59837484367883_1_alg».proof.Proof.Steps
import proofs.«120840_j59837484367883_1_alg».proof.Proof.Payload
import proofs.«120840_j59837484367883_1_alg».proof.Proof.Blocks
import proofs.«120840_j59837484367883_1_alg».proof.Proof.Spec

noncomputable section

namespace Cert.KernelIdeal.Fold

open Cert.KernelIdeal Cert.KernelIdeal.Gen Cert.KernelIdeal.Blocks Idealize.ShloMosaic Idealize.ShloMosaic.TcCoe Idealize.SL.Sem
open Idealize.ShloMosaic.ValueIdx Cert.Spec

variable (m : (ℓ : Loc nD τ sig) → Buf (Elt Ideal) ℓ)

/-- Step `n`'s addend at a block entry: its stretch of the contraction, at the step's rows and columns. -/
def addend (c : Dev nD) (n : ℕ) (i : S512x1024.Idx) : EReal :=
  ∑ j : Fin 1024, term (xarr m c) (warr m c) (marr m c)
    (512 * (n / 16) + (i 0).val) (1024 * (n / 4 % 4) + (i 1).val) (1024 * (n % 4) + j.val)

/-- The product of a step's loaded blocks at an entry is the step's addend. -/
theorem product_eq (c : Dev nD) (n : ℕ) (h : n < cfg0.N) (p : Fin 512) (q : Fin 1024) :
    ∑ j : Fin 1024, xblk m c ⟨n, h⟩ (ix2 p j) * (wblk m c ⟨n, h⟩ (ix2 q j) * mblk m c ⟨n, h⟩ (ix2 q j))
      = addend m c n (ix2 p q) := by
  have hN : n < 512 := lt_of_lt_of_eq h (show cfg0.N = 512 from N_0)
  unfold addend
  refine Finset.sum_congr rfl fun j _ => ?_
  have hr : 512 * (n / 16) + p.val < 16384 := by have := p.isLt; omega
  have hc : 1024 * (n / 4 % 4) + q.val < 4096 := by have := q.isLt; omega
  have hk : 1024 * (n % 4) + j.val < 4096 := by have := j.isLt; omega
  rw [xblk_apply m c ⟨n, h⟩ p j hr hk, wblk_apply m c ⟨n, h⟩ q j hc hk, mblk_apply m c ⟨n, h⟩ q j hc hk]
  exact (term_of_lt (xarr m c) (warr m c) (marr m c) _ _ _ hr hc hk).symm

/-- The junk a scratch buffer may hold before its first store (never read). -/
abbrev junk : Vec Ideal S512x1024 .f32 := VS0_0.read (Elt Ideal) VS0_0.junk

/-- The first step of a stretch leaves `0 +` its addend. -/
theorem first_apply (c : Dev nD) (b : ℕ) (hb : b % 4 = 0) (h : b < cfg0.N) (i : S512x1024.Idx) :
    (Value.scAt0_0 m c b h (junk) : S512x1024.Idx → EReal) i = 0 + addend m c b i := by
  have h1 : ¬b % 4 = 3 := by omega
  obtain ⟨p, q, rfl⟩ : ∃ (p : Fin 512) (q : Fin 1024), i = ix2 p q := ⟨i 0, i 1, eq_ix2 (n0 := 512) (n1 := 1024) i⟩
  unfold Value.scAt0_0
  rw [dif_pos hb, dif_neg h1, Steps.scratch_first]
  show k0_pay2 (F := Ideal) (wblk m c ⟨b, h⟩) (mblk m c ⟨b, h⟩) (xblk m c ⟨b, h⟩) (k0_pay1 (F := Ideal)) (ix2 p q) = _
  rw [Payload.step_apply, Payload.reset_apply, product_eq]

/-- Every later step of the stretch adds its addend to what the step before left. -/
theorem later_apply (c : Dev nD) (n : ℕ) (hn : ¬n % 4 = 0) (h : n < cfg0.N) (acc : Vec Ideal S512x1024 .f32) (i : S512x1024.Idx) :
    (Value.scAt0_0 m c n h acc : S512x1024.Idx → EReal) i = (acc : S512x1024.Idx → EReal) i + addend m c n i := by
  obtain ⟨p, q, rfl⟩ : ∃ (p : Fin 512) (q : Fin 1024), i = ix2 p q := ⟨i 0, i 1, eq_ix2 (n0 := 512) (n1 := 1024) i⟩
  unfold Value.scAt0_0
  by_cases h1 : n % 4 = 3
  · rw [dif_neg hn, dif_pos h1, Steps.scratch_last]
    show k0_pay2 (F := Ideal) (wblk m c ⟨n, h⟩) (mblk m c ⟨n, h⟩) (xblk m c ⟨n, h⟩) acc (ix2 p q) = _
    rw [Payload.step_apply, product_eq]
  · rw [dif_neg hn, dif_neg h1, Steps.scratch_middle]
    show k0_pay2 (F := Ideal) (wblk m c ⟨n, h⟩) (mblk m c ⟨n, h⟩) (xblk m c ⟨n, h⟩) acc (ix2 p q) = _
    rw [Payload.step_apply, product_eq]

/-- The accumulator after step `t`: zero plus the addends of its stretch so far. -/
theorem scratch_apply (c : Dev nD) (t : Fin cfg0.N) (i : S512x1024.Idx) :
    ((outsAt0 m c t.val t.isLt).2 : S512x1024.Idx → EReal) i
      = 0 + ∑ s ∈ Finset.range (t.val % 4 + 1), addend m c (4 * (t.val / 4) + s) i := by
  rw [Value.soutsAt0_0_eq]
  exact Pipeline.accAt_add_apply (ι := S512x1024.Idx) (β := EReal)
    (fun n h => Value.scAt0_0 m c n h junk) (Value.scAt0_0 m c) (fun _ => 0) (addend m c) (4 * (t.val / 4)) 3
    (fun h i => first_apply m c _ (by omega) h i)
    (fun n h acc i h1 h2 => later_apply m c n (by omega) h acc i)
    (t.val % 4) (by omega) _ i

/-- At the last step of a stretch the output block is the accumulator plus the bias block. -/
theorem out_eq (c : Dev nD) (t : Fin cfg0.N) (h3 : t.val % 4 = 3) :
    (outsAt0 m c t.val t.isLt).1 = k0_pay3 (F := Ideal) (outsAt0 m c t.val t.isLt).2 (bblk m c t) := by
  have h0 : ¬t.val % 4 = 0 := by omega
  rw [outsAt0_C m c t h0 h3]
  dsimp only
  rw [Steps.out_last, Steps.scratch_last]

/-- The four stretches of one output entry are the whole contraction. -/
theorem stretch_sum (c : Dev nD) (t : ℕ) (p : Fin 512) (q : Fin 1024) :
    ∑ s ∈ Finset.range 4, addend m c (4 * (t / 4) + s) (ix2 p q)
      = ∑ k : Fin 4096, term (xarr m c) (warr m c) (marr m c) (512 * (t / 16) + p.val) (1024 * (t / 4 % 4) + q.val) k.val := by
  rw [← stretches]
  refine Finset.sum_congr rfl fun s hs => ?_
  have hs4 : s < 4 := Finset.mem_range.mp hs
  unfold addend
  have e1 : (4 * (t / 4) + s) / 16 = t / 16 := by omega
  have e2 : (4 * (t / 4) + s) / 4 % 4 = t / 4 % 4 := by omega
  have e3 : (4 * (t / 4) + s) % 4 = s := by omega
  rw [e1, e2, e3]

/-- The block the last step of a stretch writes, at an entry: the specification at the block's rows and columns. -/
theorem out_apply (c : Dev nD) (t : Fin cfg0.N) (h3 : t.val % 4 = 3) (p : Fin 512) (q : Fin 1024)
    (hr : 512 * (t.val / 16) + p.val < 16384) (hc : 1024 * (t.val / 4 % 4) + q.val < 4096) :
    ((outsAt0 m c t.val t.isLt).1 : S512x1024.Idx → EReal) (ix2 p q)
      = G (xarr m c) (warr m c) (barr m c) (marr m c) (ix2 ⟨512 * (t.val / 16) + p.val, hr⟩ ⟨1024 * (t.val / 4 % 4) + q.val, hc⟩) := by
  rw [out_eq m c t h3, Payload.close_apply, scratch_apply, h3, stretch_sum, zero_add, bblk_apply m c t q hc]
  rfl

end Cert.KernelIdeal.Fold

end
-- ==== Proof.Final.lean ====
/-
  From blocks to the array.  The output's 32 × 4 blocks tile the 16384 × 4096 result; block (a, b) is written once,
  by the last step of its stretch (step 16·a + 4·b + 3), and holds the specification at rows 512·a + p and columns
  1024·b + q.  So after the run the result array is the specification of the four argument arrays.
-/
import proofs.«120840_j59837484367883_1_alg».proof.Proof.Fold

noncomputable section

namespace Cert.KernelIdeal.Final

open Cert.KernelIdeal Cert.KernelIdeal.Gen Cert.KernelIdeal.Blocks Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The specification of the argument arrays, as contents of the result array. -/
abbrev spec (c : Dev nD) : Buf (Elt Ideal) ((c : Thread nD τ).loc main_v1) :=
  G (xarr m c) (warr m c) (barr m c) (marr m c)

/-- What a writing step writes back is its block of the specification. -/
theorem flushed_eq (c : Dev nD) (t : Fin cfg0.N) (hf : (cfg0.win 4).flush t = true) :
    (dats m 0 c).flushed 4 t = ((cfg0.win 4).blk t).view.read (Elt Ideal) (spec m c) := by
  have h3 : t.val % 4 = 3 := (flush0_4 t).mp hf
  have hN : t.val < 512 := lt_of_lt_of_eq t.isLt (show cfg0.N = 512 from N_0)
  rw [Value.flushed4]
  funext j
  obtain ⟨p, q, rfl⟩ : ∃ (p : Fin 512) (q : Fin 1024), j = (ix2 p q : S512x1024.Idx) :=
    ⟨j 0, j 1, eq_ix2 (n0 := 512) (n1 := 1024) j⟩
  have hr : 512 * (t.val / 16) + p.val < 16384 := by have := p.isLt; omega
  have hc : 1024 * (t.val / 4 % 4) + q.val < 4096 := by have := q.isLt; omega
  rw [View.read_apply]
  have he : ((cfg0.win 4).blk t).view.emb (ix2 p q : S512x1024.Idx)
      = (ix2 ⟨512 * (t.val / 16) + p.val, hr⟩ ⟨1024 * (t.val / 4 % 4) + q.val, hc⟩ : S16384x4096.Idx) :=
    funext fun a => Fin.ext (by
      match a with
      | ⟨0, _⟩ => show win0_4.index t 0 * 512 + 1 * p.val = 512 * (t.val / 16) + p.val; rw [(index_o t).1]; omega
      | ⟨1, _⟩ => show win0_4.index t 1 * 1024 + 1 * q.val = 1024 * (t.val / 4 % 4) + q.val; rw [(index_o t).2]; omega)
  rw [he]
  exact Fold.out_apply m c t h3 p q hr hc

/-- An entry of the result lies in step `t`'s block iff each coordinate lies in the block's range. -/
theorem mem_blk (t : Fin cfg0.N) (i : S16384x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1).slice (win0_4.rect t)).set ↔ _
  rw [View.set_slice_whole, Rect.mem_set_unit]
  exact Iff.rfl

/-- Every entry of the result is in the block of some writing step: the one of its row block and column block. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 512 := N_0
  let t : Fin cfg0.N := ⟨16 * ((i 0).val / 512) + 4 * ((i 1).val / 1024) + 3, by omega⟩
  have ht : t.val = 16 * ((i 0).val / 512) + 4 * ((i 1).val / 1024) + 3 := rfl
  refine ⟨t, (flush0_4 t).mpr (by omega), ?_⟩
  rw [mem_blk]
  intro a
  match a with
  | ⟨0, _⟩ =>
    show win0_4.index t 0 * 512 ≤ (i 0).val ∧ (i 0).val < win0_4.index t 0 * 512 + 512
    rw [(index_o t).1]; omega
  | ⟨1, _⟩ =>
    show win0_4.index t 1 * 1024 ≤ (i 1).val ∧ (i 1).val < win0_4.index t 1 * 1024 + 1024
    rw [(index_o t).2]; omega

/-- The result array after the run is the specification. -/
theorem final (c : Dev nD) : (dats m 0 c).arrAt 4 cfg0.N = spec m c :=
  (dats m 0 c).arrAt_eq_of_cover 4 (spec m c) (flushed_eq m c) cover

/-- The run, read: the result at the specification of the arguments, the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.lean ====
/- The masked linear layer  y = x · (w ∘ mask)ᵀ + bias  on 16384 × 4096 activations: a kernel that walks a
   32 × 4 × 4 grid (row block, column block, stretch of the contracted axis), accumulating each output block over
   the four stretches and adding the bias on the last, against the one-line reference.

   On the extended reals both are  y (r, c) = (∑_k x (r, k) · (w (c, k) · mask (c, k))) + bias c :
   the kernel's change of float format is the identity there, its block product into a zero accumulator is the
   plain sum over the stretch, and the four stretch sums regroup into the whole contraction because `+` on the
   extended reals is commutative and associative (no finiteness is needed, and the precondition is not opened).

   The three frames are the generated runs; the idealization rewrote nothing; the equivalence sets the kernel's
   run, with its result array at the specification, beside the reference's run read as the same specification. -/
import proofs.«120840_j59837484367883_1_alg».proof.Defs
import proofs.«120840_j59837484367883_1_alg».proof.Proof.Gen.Kernel
import proofs.«120840_j59837484367883_1_alg».proof.Proof.Gen.Kernel.Skeleton
import proofs.«120840_j59837484367883_1_alg».proof.Proof.Gen.Kernel.Launch
import proofs.«120840_j59837484367883_1_alg».proof.Proof.Gen.Kernel.Points
import proofs.«120840_j59837484367883_1_alg».proof.Proof.Gen.Kernel.Frame
import proofs.«120840_j59837484367883_1_alg».proof.Proof.Gen.KernelIdeal
import proofs.«120840_j59837484367883_1_alg».proof.Proof.Gen.KernelIdeal.Skeleton
import proofs.«120840_j59837484367883_1_alg».proof.Proof.Gen.KernelIdeal.Launch
import proofs.«120840_j59837484367883_1_alg».proof.Proof.Gen.KernelIdeal.Points
import proofs.«120840_j59837484367883_1_alg».proof.Proof.Gen.KernelIdeal.Frame
import proofs.«120840_j59837484367883_1_alg».proof.Proof.Gen.KernelIdeal.Value
import proofs.«120840_j59837484367883_1_alg».proof.Proof.Gen.ReferenceIdeal
import proofs.«120840_j59837484367883_1_alg».proof.Proof.Gen.ReferenceIdeal.Run
import proofs.«120840_j59837484367883_1_alg».proof.Proof.Gen.ReferenceIdeal.Read
import proofs.«120840_j59837484367883_1_alg».proof.Proof.Gen.Pre_finite_inputs
import Idealize.ShloMosaic.Adequacy
import Idealize.ShloMosaic.Init
import proofs.«120840_j59837484367883_1_alg».proof.Proof.Ref
import proofs.«120840_j59837484367883_1_alg».proof.Proof.Final

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the specification of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsSpec.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
